-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1024x1024 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1024x1024 : Shape := ⟨2, ![1024, 1024]⟩
abbrev S1024 : Shape := ⟨1, ![1024]⟩
abbrev S1x1 : Shape := ⟨2, ![1, 1]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S1024x1 : Shape := ⟨2, ![1024, 1]⟩
abbrev S_ : Shape := ⟨0, ![]⟩
abbrev S1x1024 : Shape := ⟨2, ![1, 1024]⟩
abbrev S512x1024 : Shape := ⟨2, ![512, 1024]⟩

abbrev nBuf : Space → Nat
  | .hbm => 41
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S1x1024, .f32⟩
  | .hbm, ⟨40, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1, .f32⟩
  | .local _ .vmem, ⟨3, _⟩ => ⟨S1024x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S1x1024, .f32⟩
  | .local _ .vmem, ⟨9, _⟩ => ⟨S1x1, .f32⟩
  | .local _ .vmem, ⟨10, _⟩ => ⟨S1x1, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_cst_6 : Ref sig .tc := ⟨.hbm, 28, rfl⟩
abbrev main_v13 : Ref sig .tc := ⟨.hbm, 29, rfl⟩
abbrev main_v14 : Ref sig .tc := ⟨.hbm, 30, rfl⟩
abbrev main_cst_7 : Ref sig .tc := ⟨.hbm, 31, rfl⟩
abbrev main_cst_8 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg5_1 : Ref sig .tc := ⟨.vmem, 12, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc2_sem0_0 : DmaSem sig := 5
abbrev cc2_sem0_1 : DmaSem sig := 6
abbrev cc2_sem1_0 : DmaSem sig := 7
abbrev cc2_sem2_0 : DmaSem sig := 8
abbrev cc2_sem3_0 : DmaSem sig := 9
abbrev cc2_sem4_0 : DmaSem sig := 10
abbrev cc2_sem5_0 : DmaSem sig := 11
abbrev cc2_sem5_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S1x1_S1x1_0_0 : ∀ a, (![0, 0] : Fin 2 → Nat) a + S1x1.size a ≤ S1x1.size a
  h_S1x1 : 0 < S1x1.numel
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  bcast_S_S1x1 : S_.BroadcastsInDim S1x1 (![] : Fin 0 → Fin S1x1.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  broadcasts_S1x1_S512x1024 : S1x1.Broadcasts S512x1024
  broadcasts_S1x1_S1024x1024 : S1x1.Broadcasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S32768x1024.size a
  hwx2_0 : ∀ i : grid2.Coords, EltTy.bits .f32 = 32 ∨ (Rect.block (s := S32768x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S32768x1024.size a
  hwx2_5 : ∀ i : grid2.Coords, EltTy.bits .f32 = 32 ∨ (Rect.block (s := S32768x1024) S512x1024.size (cc2_transform_5 i) (hinb2_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S32768x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S1024x1024, .f32⟩
  | .hbm, ⟨70, _⟩ => ⟨S1024x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_cst_4 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_cst_6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v8 : Ref sig .tc := ⟨.hbm, 27, rfl⟩
abbrev main_cst_7 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_8 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_9 : Ref sig .tc := ⟨.hbm, 36, rfl⟩
abbrev main_v15 : Ref sig .tc := ⟨.hbm, 37, rfl⟩
abbrev main_cst_10 : Ref sig .tc := ⟨.hbm, 38, rfl⟩
abbrev main_v16 : Ref sig .tc := ⟨.hbm, 39, rfl⟩
abbrev main_cst_11 : Ref sig .tc := ⟨.hbm, 40, rfl⟩
abbrev main_v17 : Ref sig .tc := ⟨.hbm, 41, rfl⟩
abbrev main_cst_12 : Ref sig .tc := ⟨.hbm, 42, rfl⟩
abbrev main_v18 : Ref sig .tc := ⟨.hbm, 43, rfl⟩
abbrev main_cst_13 : Ref sig .tc := ⟨.hbm, 44, rfl⟩
abbrev main_cst_14 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_15 : Ref sig .tc := ⟨.hbm, 52, rfl⟩
abbrev main_cst_16 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_v22 : Ref sig .tc := ⟨.hbm, 59, rfl⟩
abbrev main_cst_17 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_18 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  reducesTo_S32768x1024_S_d0_1 : S32768x1024.ReducesTo [0, 1] S_
  bcast_S_S32768x1024 : S_.BroadcastsInDim S32768x1024 (![] : Fin 0 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.Spec.lean ====
/-
  The mathematics of the statement, over the extended reals, with no program in sight.

  Both programs compute a "fake-quantized" linear layer. For an array `t` let `amax t` be its largest absolute value,
  `scaleOf (amax t)` the scale `448 / (2·amax t + ε)` clamped to `[ε, 10¹²]`, and `qdq s v` the entry `v` scaled by `s`,
  clamped to `[-448, 448]`, rounded to the nearest eighth (ties to even) and scaled back. The result at row `r`, column `n`
  is `∑ₖ qdq sₓ x[r,k] · qdq s_w w[n,k] + bias[n]`. The float literals stay as the binary words both programs print:
  the same word on both sides is never evaluated.
-/
import Idealize.ShloMosaic.PureOps.Ideal
import Idealize.ShloMosaic.Lib.ValueIdx

noncomputable section

open scoped BigOperators

namespace Cert.QuantGemm

open Idealize.ShloMosaic Idealize.ShloMosaic.ValueIdx

/-- The largest absolute value of an array: the supremum of `max v (-v)` over its entries (`⊥` for an empty array). -/
def amax {S : Shape} (x : S.Idx → EReal) : EReal := Finset.univ.sup fun i => max (x i) (-(x i))

/-- Every entry's absolute value is at most the largest one. -/
theorem le_amax {S : Shape} (x : S.Idx → EReal) (i : S.Idx) : max (x i) (-(x i)) ≤ amax x :=
  Finset.le_sup (f := fun i => max (x i) (-(x i))) (Finset.mem_univ i)

/-- A bound on every entry's absolute value bounds the largest one. -/
theorem amax_le {S : Shape} {x : S.Idx → EReal} {u : EReal} (h : ∀ i, max (x i) (-(x i)) ≤ u) : amax x ≤ u :=
  Finset.sup_le fun i _ => h i

/-- An absolute value is not negative, also at the two infinities. -/
theorem abs_nonneg (v : EReal) : 0 ≤ max v (-v) := by
  rcases le_total 0 v with h | h
  · exact le_max_of_le_left h
  · exact le_max_of_le_right (by simpa using EReal.neg_le_neg_iff.mpr h)

/-- So the largest absolute value of a nonempty array is not negative. -/
theorem amax_nonneg {S : Shape} (x : S.Idx → EReal) (i : S.Idx) : 0 ≤ amax x :=
  (abs_nonneg (x i)).trans (le_amax x i)

/-- The quantization scale from the largest absolute value `a`: `448 / (a·2 + ε)`, clamped below by `ε` and above by `10¹²`
    (`ε` the f32 nearest `10⁻¹²`). -/
def scaleOf (a : EReal) : EReal :=
  min (Ideal.ofBits .f32 0x5368D4A5#32) (max (Ideal.ofBits .f32 0x2B8CBCCC#32)
    (Ideal.div (Ideal.ofBits .f32 0x43E00000#32) (a * Ideal.ofBits .f32 0x40000000#32 + Ideal.ofBits .f32 0x2B8CBCCC#32)))

/-- Quantize and dequantize one entry `v` at scale `s`: `round₈(clamp(v·s, -448, 448)) / s`, where `round₈ u` is `u·8` rounded
    to the nearest integer, ties to even, over `8`. -/
def qdq (s v : EReal) : EReal :=
  Ideal.div (Ideal.div (Ideal.liftRound Ideal.roundHalfEven
    (min (Ideal.ofBits .f32 0x43E00000#32) (max (Ideal.ofBits .f32 0xC3E00000#32) (v * s)) * Ideal.ofBits .f32 0x41000000#32))
    (Ideal.ofBits .f32 0x41000000#32)) s

/-- The activations' shape, the weights' and the bias's. -/
abbrev SX : Shape := ⟨2, ![32768, 1024]⟩
abbrev SW : Shape := ⟨2, ![1024, 1024]⟩
abbrev SB : Shape := ⟨1, ![1024]⟩

/-- The layer at given scales: row `r`, column `n` holds `∑ₖ qdq sx x[r,k] · qdq sw w[n,k] + bias n`. -/
def gemm (sx sw : EReal) (x : SX.Idx → EReal) (w : SW.Idx → EReal) (bias : Fin 1024 → EReal) : SX.Idx → EReal :=
  fun i => (∑ k : Fin 1024, qdq sx (x (ix2 (i 0) k)) * qdq sw (w (ix2 (i 1) k))) + bias (i 1)

/-- The whole layer: each operand quantized at the scale of its own largest absolute value. -/
def layer (x : SX.Idx → EReal) (w : SW.Idx → EReal) (b : SB.Idx → EReal) : SX.Idx → EReal :=
  gemm (scaleOf (amax x)) (scaleOf (amax w)) x w fun n => b (ix1 n)

/-- A fold of `max` from `-∞` over all entries' absolute values is the largest absolute value. -/
theorem fold_max_eq_amax {S : Shape} (x : S.Idx → EReal) :
    (Finset.univ : Finset S.Idx).fold max (⊥ : EReal) (fun i => max (x i) (-(x i))) = amax x := rfl

end Cert.QuantGemm

end
-- ==== Proof.Glue.lean ====
/-
  What the third kernel region finds when it is entered, in terms of the launch memory and of what the first two regions
  leave: the activations and weights as launched (no region and no host operation writes an argument), the bias as a
  `1 × 1024` row of the launched bias, and the two scales `scaleOf` of the two regions' `1 × 1` outputs — the host
  operations between the regions compute `448 / (a·2 + ε)` clamped to `[ε, 10¹²]` on `1 × 1` arrays, entry by entry the
  specification's `scaleOf`.
-/
import proofs.«145302_j49031346651645_1_alg».proof.Proof.Spec
import proofs.«145302_j49031346651645_1_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Glue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, as each region finds them -/

/-- The first region finds the activations as launched. -/
theorem x_at_region0 (c : Dev nD) : V0 m ρ c main_arg0 = m ((c : Thread nD τ).loc main_arg0) := rfl

/-- The second region finds the weights as launched: the first region's arrays are the activations and its own output. -/
theorem w_at_region1 (c : Dev nD) : V1 m ρ c main_arg1 = m ((c : Thread nD τ).loc main_arg1) :=
  W1_of_ne m ρ c main_arg1 (by decide)

/-- The third region finds the activations as launched … -/
theorem x_at_region2 (c : Dev nD) : V7 m ρ c main_arg0 = m ((c : Thread nD τ).loc main_arg0) :=
  ((W8_arr m ρ c 0).trans (((dat2 (V7 m ρ) c).arrAt_in 0 rfl _).trans (A_eq2 (V7 m ρ) c 0))).symm.trans (W8_main_arg0 m ρ c)

/-- … and the weights as launched. -/
theorem w_at_region2 (c : Dev nD) : V7 m ρ c main_arg1 = m ((c : Thread nD τ).loc main_arg1) :=
  ((W8_arr m ρ c 1).trans (((dat2 (V7 m ρ) c).arrAt_in 1 rfl _).trans (A_eq2 (V7 m ρ) c 1))).symm.trans (W8_main_arg1 m ρ c)

/-- After the two reductions the bias is still as launched. -/
theorem bias_after_reductions (c : Dev nD) : W2 m ρ c (Proc.devRef .tc main_arg2) = m ((c : Thread nD τ).loc main_arg2) :=
  (W2_of_ne m ρ c main_arg2 (by decide)).trans (W1_of_ne m ρ c main_arg2 (by decide))

/-! ## The bias row and the two scales -/

/-- The bias row the third region reads: entry `(0, n)` of the `1 × 1024` reshape is entry `n` of the launched bias. -/
theorem bias_at_region2 (c : Dev nD) (n : Fin 1024) :
    (V7 m ρ c main_v16 : S1x1024.Idx → EReal) (ix2 0 n) = (m ((c : Thread nD τ).loc main_arg2) : S1024.Idx → EReal) (ix1 n) := by
  have e : (W7 m ρ c (Proc.devRef .tc main_v16) : S1x1024.Idx → EReal)
      = shapeCast S1x1024 (W2 m ρ c (Proc.devRef .tc main_arg2) : S1024.Idx → EReal) shapeCasts_S1024_S1x1024 := by
    dsimp only [W7, W6, W5, W4, W3]; after_results; rfl
  show (W7 m ρ c (Proc.devRef .tc main_v16) : S1x1024.Idx → EReal) (ix2 0 n) = _
  rw [e, shapeCast_a_1a_apply, bias_after_reductions]

/-- The scale of a `1 × 1` array holding `a`, as the host operations between the regions compute it, holds `scaleOf a`. -/
theorem scale_chain_apply (a : S1x1.Idx → EReal) (j : S1x1.Idx) :
    (minimumf (broadcastInDim S1x1 ![] bcast_S_S1x1 (id (constant (F := Ideal) S_ .f32 0x5368D4A5#32)))
      (maximumf (broadcastInDim S1x1 ![] bcast_S_S1x1 (id (constant (F := Ideal) S_ .f32 0x2B8CBCCC#32)))
        (Host.divf (broadcastInDim S1x1 ![] bcast_S_S1x1 (constant (F := Ideal) S_ .f32 0x43E00000#32))
          (addf (mulf a (broadcastInDim S1x1 ![] bcast_S_S1x1 (constant (F := Ideal) S_ .f32 0x40000000#32)))
            (broadcastInDim S1x1 ![] bcast_S_S1x1 (constant (F := Ideal) S_ .f32 0x2B8CBCCC#32))))) : S1x1.Idx → EReal) j
      = Cert.QuantGemm.scaleOf (a j) := rfl

/-- The activations' scale the third region reads is `scaleOf` of the first region's output. -/
theorem xscale_at_region2 (c : Dev nD) :
    (V7 m ρ c main_v8 : S1x1.Idx → EReal) (ix2 0 0)
      = Cert.QuantGemm.scaleOf (((dat0 (V0 m ρ) c).arrAt 1 cfg0.N : S1x1.Idx → EReal) (ix2 0 0)) := by
  have e0 : (W2 m ρ c (Proc.devRef .tc main_v0) : S1x1.Idx → EReal) = (dat0 (V0 m ρ) c).arrAt 1 cfg0.N :=
    (W2_of_ne m ρ c main_v0 (by decide)).trans (W1_arr m ρ c 1)
  have e : (W7 m ρ c (Proc.devRef .tc main_v8) : S1x1.Idx → EReal)
      = minimumf (broadcastInDim S1x1 ![] bcast_S_S1x1 (id (constant (F := Ideal) S_ .f32 0x5368D4A5#32)))
          (maximumf (broadcastInDim S1x1 ![] bcast_S_S1x1 (id (constant (F := Ideal) S_ .f32 0x2B8CBCCC#32)))
            (Host.divf (broadcastInDim S1x1 ![] bcast_S_S1x1 (constant (F := Ideal) S_ .f32 0x43E00000#32))
              (addf (mulf (W2 m ρ c (Proc.devRef .tc main_v0) : S1x1.Idx → EReal) (broadcastInDim S1x1 ![] bcast_S_S1x1 (constant (F := Ideal) S_ .f32 0x40000000#32)))
                (broadcastInDim S1x1 ![] bcast_S_S1x1 (constant (F := Ideal) S_ .f32 0x2B8CBCCC#32))))) := by
    dsimp only [W7, W6, W5, W4, W3]; after_results; rfl
  show (W7 m ρ c (Proc.devRef .tc main_v8) : S1x1.Idx → EReal) (ix2 0 0) = _
  rw [e, scale_chain_apply, e0]

/-- The weights' scale the third region reads is `scaleOf` of the second region's output. -/
theorem wscale_at_region2 (c : Dev nD) :
    (V7 m ρ c main_v15 : S1x1.Idx → EReal) (ix2 0 0)
      = Cert.QuantGemm.scaleOf (((dat1 (V1 m ρ) c).arrAt 1 cfg1.N : S1x1.Idx → EReal) (ix2 0 0)) := by
  have e0 : (W2 m ρ c (Proc.devRef .tc main_v1) : S1x1.Idx → EReal) = (dat1 (V1 m ρ) c).arrAt 1 cfg1.N := W2_arr m ρ c 1
  have e : (W7 m ρ c (Proc.devRef .tc main_v15) : S1x1.Idx → EReal)
      = minimumf (broadcastInDim S1x1 ![] bcast_S_S1x1 (id (constant (F := Ideal) S_ .f32 0x5368D4A5#32)))
          (maximumf (broadcastInDim S1x1 ![] bcast_S_S1x1 (id (constant (F := Ideal) S_ .f32 0x2B8CBCCC#32)))
            (Host.divf (broadcastInDim S1x1 ![] bcast_S_S1x1 (constant (F := Ideal) S_ .f32 0x43E00000#32))
              (addf (mulf (W2 m ρ c (Proc.devRef .tc main_v1) : S1x1.Idx → EReal) (broadcastInDim S1x1 ![] bcast_S_S1x1 (constant (F := Ideal) S_ .f32 0x40000000#32)))
                (broadcastInDim S1x1 ![] bcast_S_S1x1 (constant (F := Ideal) S_ .f32 0x2B8CBCCC#32))))) := by
    dsimp only [W7, W6, W5, W4, W3]; after_results; rfl
  show (W7 m ρ c (Proc.devRef .tc main_v15) : S1x1.Idx → EReal) (ix2 0 0) = _
  rw [e, scale_chain_apply, e0]

/-- The result array after the run is the third region's output. -/
theorem result_is_region2_output (c : Dev nD) :
    W8 m ρ c (Proc.devRef .tc main_v17) = (dat2 (V7 m ρ) c).arrAt 5 cfg2.N := W8_arr m ρ c 5

end Cert.KernelIdeal.Glue

end
-- ==== Proof.MaxFold.lean ====
/-
  The order-theoretic core shared by the two abs-max reductions: the largest absolute value of a rank-two block as a
  fold of `max` from `-∞` over its rows of the fold of `max` from `-∞` over each row's lanes, carried by its
  universal property (it dominates every entry's absolute value, and any bound of those dominates it), and the word
  `0xFF800000` read as `-∞`.
-/
import proofs.«145302_j49031346651645_1_alg».proof.Proof.Spec
import Mathlib.Data.Finset.Fold
import Idealize.ShloMosaic.PureOps.Ideal.Laws
import Idealize.ShloMosaic.Lib.ValueIdx

noncomputable section

namespace Cert.QuantGemm

open Idealize.ShloMosaic Idealize.ShloMosaic.ValueIdx

/-- The f32 word `0xFF800000` is `-∞`. -/
theorem ofBits_neg_inf : Ideal.ofBits .f32 0xFF800000#32 = (⊥ : EReal) := by
  simp [Ideal.ofBits, Ideal.ieee]

/-- The largest absolute value of an `R × L` block, as the two nested folds of `max` compute it: per row the
    maximum over the lanes, then the maximum over the rows, each from `-∞`. -/
def blockAmax {R L : ℕ} (x : (⟨2, ![R, L]⟩ : Shape).Idx → EReal) : EReal :=
  (Finset.univ : Finset (Fin R)).fold max (⊥ : EReal) fun r =>
    (Finset.univ : Finset (Fin L)).fold max (⊥ : EReal) fun l => max (x (ix2 r l)) (-(x (ix2 r l)))

/-- It dominates every entry's absolute value: the entry's lane realises the row's fold, the row the outer one. -/
theorem le_blockAmax {R L : ℕ} (x : (⟨2, ![R, L]⟩ : Shape).Idx → EReal) (r : Fin R) (l : Fin L) :
    max (x (ix2 r l)) (-(x (ix2 r l))) ≤ blockAmax x :=
  (Finset.le_fold_max _).mpr (Or.inr ⟨r, Finset.mem_univ r,
    (Finset.le_fold_max _).mpr (Or.inr ⟨l, Finset.mem_univ l, le_rfl⟩)⟩)

/-- Any bound of every entry's absolute value bounds it: `-∞` is below everything and a fold of `max` is below
    what bounds its terms. -/
theorem blockAmax_le {R L : ℕ} {x : (⟨2, ![R, L]⟩ : Shape).Idx → EReal} {u : EReal}
    (h : ∀ (r : Fin R) (l : Fin L), max (x (ix2 r l)) (-(x (ix2 r l))) ≤ u) : blockAmax x ≤ u :=
  (Finset.fold_max_le _).mpr ⟨bot_le, fun r _ => (Finset.fold_max_le _).mpr ⟨bot_le, fun l _ => h r l⟩⟩

end Cert.QuantGemm

end
-- ==== Proof.Amax0.lean ====
import proofs.«145302_j49031346651645_1_alg».proof.Proof.Spec
import proofs.«145302_j49031346651645_1_alg».proof.Proof.Gen.KernelIdeal.Frame
import proofs.«145302_j49031346651645_1_alg».proof.Proof.MaxFold
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-
  The value of the first abs-max reduction: sixteen row blocks of 2048 rows of a 32768 × 1024 array are folded into one
  1 × 1 cell that starts at 0 and at every block takes the maximum of itself and the block's largest absolute value.
  The cell ends at the largest absolute value of the whole array. No supremum is re-indexed: the running value never
  exceeds the array's largest absolute value (it starts at 0 ≤ it, and every block's entries are entries of the
  array), and every entry's absolute value is below the running value from its own block on (the running value only
  grows), so the two are equal by antisymmetry.
-/

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

open Cert.QuantGemm

/-! ## What one grid point leaves in the cell, for any float values -/

section AnyValues
variable {F : FTy → Type} [FloatOps F]

/-- The zero offsets, as the constant function. -/
theorem hz : (![0, 0] : Fin 2 → Nat) = fun _ => 0 := funext fun a => by fin_cases a <;> rfl

/-- A later point: the cell holding `xo` ends at the accumulating store's payload of the block `x` and `xo`. -/
theorem out_B (c : Dev nD) (i : grid0.Coords) (a1 : Memref sig .tc .vmem S2048x1024 .f32) (h1 : a1.IsWhole)
    (a2 : Memref sig .tc .vmem S1x1 .f32) (h2 : a2.IsWhole) (hc : ¬cond0_0 i) (x : Vec F S2048x1024 .f32)
    (xo : Vec F S1x1 .f32) : out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero (S := S1x1) hz]
  simp only [View.readAt_eq_ld, h1.read_unread, h2.read_unread, View.ld_unit_zero (S := S2048x1024) hz,
    View.ld_unit_zero (S := S1x1) hz]

/-- The first point: the cell is reset, read back, and ends at the same payload of the block and the reset value. -/
theorem out_A (c : Dev nD) (i : grid0.Coords) (a1 : Memref sig .tc .vmem S2048x1024 .f32) (h1 : a1.IsWhole)
    (a2 : Memref sig .tc .vmem S1x1 .f32) (h2 : a2.IsWhole) (hc : cond0_0 i) (x : Vec F S2048x1024 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S2048x1024) hz]

end AnyValues

/-! ## The payloads over the extended reals -/

/-- The lane reduction at row `r`: the fold of `max` from `-∞` over the row's lanes. -/
theorem laneMax_apply (v : FVec Ideal S2048x1024 .f32) (r : Fin 2048) :
    multiReduction (F := Ideal) .maximumf [1] S2048 v 0xFF800000#32 reduces_S2048x1024_S2048 (.inl rfl) rfl (ix1 r)
      = (Finset.univ : Finset (Fin 1024)).fold max (⊥ : EReal) fun l => v (ix2 r l) := by
  refine (Ideal.multiReduction_maximumf_single v 0xFF800000#32 reduces_S2048x1024_S2048 (.inl rfl) rfl (ix1 r)).trans ?_
  rw [show (FloatOps.ofBits .f32 0xFF800000#32 : Ideal .f32) = (⊥ : EReal) from ofBits_neg_inf]
  refine Finset.fold_congr fun l _ => ?_
  exact congrArg v (funext fun a => Fin.ext (by match a with | ⟨0, _⟩ => rfl | ⟨1, _⟩ => rfl))

/-- The row reduction of a one-lane column: the fold of `max` from `-∞` over the rows. -/
theorem rowMax_apply (v : FVec Ideal S2048x1 .f32) (q : Fin 1) :
    multiReduction (F := Ideal) .maximumf [0] S1 v 0xFF800000#32 reduces_S2048x1_S1 (.inl rfl) rfl (ix1 q)
      = (Finset.univ : Finset (Fin 2048)).fold max (⊥ : EReal) fun r => v (ix2 r q) := by
  refine (Ideal.multiReduction_maximumf_single v 0xFF800000#32 reduces_S2048x1_S1 (.inl rfl) rfl (ix1 q)).trans ?_
  rw [show (FloatOps.ofBits .f32 0xFF800000#32 : Ideal .f32) = (⊥ : EReal) from ofBits_neg_inf]
  refine Finset.fold_congr fun r _ => ?_
  exact congrArg v (funext fun a => Fin.ext (by match a with | ⟨0, _⟩ => rfl | ⟨1, _⟩ => rfl))

/-- A vector of rows viewed as a one-lane column reads row `i` at `(i, u)`: the same row-major position. -/
theorem shapeCast_col_apply (v : FVec Ideal S2048 .f32) (i : Fin 2048) (u : Fin 1) :
    shapeCast S2048x1 v shapeCasts_S2048_S2048x1 (ix2 i u) = v (ix1 i) :=
  shapeCast_apply v shapeCasts_S2048_S2048x1 _ _ (by
    have hu : u.val = 0 := by omega
    rw [Shape.rowMajor_val_two, Shape.rowMajor_val_one]
    show i.val = i.val * 1 + u.val
    omega)

/-- The accumulating store's payload: the previous value against the block's largest absolute value. -/
theorem pay2_apply (x : Vec Ideal S2048x1024 .f32) (xo : Vec Ideal S1x1 .f32) (j : S1x1.Idx) :
    (k0_pay2 (F := Ideal) x xo : S1x1.Idx → EReal) j = max (xo j) (blockAmax (R := 2048) (L := 1024) x) := by
  obtain ⟨p, q, rfl⟩ : ∃ (p : Fin 1) (q : Fin 1), j = ix2 p q := ⟨j 0, j 1, eq_ix2 j⟩
  unfold k0_pay2
  dsimp only
  refine (maximumf_apply _ _ _).trans ?_
  rw [shapeCast_self]
  refine congrArg (max (xo (ix2 p q))) ?_
  refine (shapeCast_a_1a_apply _ shapeCasts_S1_S1x1 p q).trans ?_
  refine (rowMax_apply _ q).trans ?_
  unfold blockAmax
  refine Finset.fold_congr fun r _ => ?_
  refine (shapeCast_col_apply _ r q).trans ?_
  refine (laneMax_apply _ r).trans ?_
  rfl

/-- The reset store's payload is `0` everywhere. -/
theorem pay1_apply (j : S1x1.Idx) : (k0_pay1 (F := Ideal) : S1x1.Idx → EReal) j = 0 := by
  unfold k0_pay1
  exact Ideal.ofBits_zero_f32

/-! ## The array, its row blocks, and the running value -/

variable (V : (c : Dev nD) → (b : Ref sig .tc) → Buf (Elt Ideal) ((c : Thread nD τ).loc b))

/-- The 32768 × 1024 argument as the reduction finds it. -/
abbrev xarr (c : Dev nD) : S32768x1024.Idx → EReal := V c main_arg0

/-- Its row block at grid point `t`. -/
abbrev xblk (c : Dev nD) (t : Fin cfg0.N) : Vec Ideal S2048x1024 .f32 := iblk0 V c 0 t

/-- The input's block index at point `t` is `(t, 0)`. -/
theorem idx_facts : ∀ t : Fin cfg0.N, win0_0.index t 0 = t.val ∧ win0_0.index t 1 = 0 :=
  (by decide +kernel : ∀ t : Fin grid0.N, win0_0.index t 0 = t.val ∧ win0_0.index t 1 = 0)

/-- Entry `(r, l)` of block `t` is entry `(2048 t + r, l)` of the array. -/
theorem xblk_apply (c : Dev nD) (t : Fin cfg0.N) (r : Fin 2048) (l : Fin 1024) (hr : 2048 * t.val + r.val < 32768) :
    xblk V c t (ix2 r l) = xarr V c (ix2 ⟨2048 * t.val + r.val, hr⟩ l) := by
  have hi := idx_facts t
  unfold xblk iblk0
  rw [View.read_apply]
  show V c main_arg0 _ = V c main_arg0 _
  refine congrArg (V c main_arg0) (funext fun a => Fin.ext ?_)
  match a with
  | ⟨0, _⟩ => show win0_0.index t 0 * 2048 + 1 * r.val = 2048 * t.val + r.val; rw [hi.1]; omega
  | ⟨1, _⟩ => show win0_0.index t 1 * 1024 + 1 * l.val = l.val; rw [hi.2]; omega

/-- A block's largest absolute value is at most the array's: its entries are entries of the array. -/
theorem blk_le_amax (c : Dev nD) (t : Fin cfg0.N) :
    blockAmax (R := 2048) (L := 1024) (xblk V c t) ≤ amax (xarr V c) :=
  blockAmax_le fun r l => by
    have hN : cfg0.N = 16 := N_0
    have ht := t.isLt
    have hr : 2048 * t.val + r.val < 32768 := by have := r.isLt; omega
    rw [xblk_apply V c t r l hr]
    exact le_amax _ _

/-- An entry in rows `2048 t … 2048 t + 2047` is an entry of block `t`, so below that block's largest absolute value. -/
theorem entry_le_blk (c : Dev nD) (t : Fin cfg0.N) (r : Fin 32768) (l : Fin 1024) (h1 : 2048 * t.val ≤ r.val)
    (h2 : r.val < 2048 * (t.val + 1)) :
    max (xarr V c (ix2 r l)) (-(xarr V c (ix2 r l))) ≤ blockAmax (R := 2048) (L := 1024) (xblk V c t) := by
  have hr' : r.val - 2048 * t.val < 2048 := by omega
  have hr : 2048 * t.val + (⟨r.val - 2048 * t.val, hr'⟩ : Fin 2048).val < 32768 := by
    show 2048 * t.val + (r.val - 2048 * t.val) < 32768
    have := r.isLt; omega
  have e : xarr V c (ix2 r l) = xblk V c t (ix2 ⟨r.val - 2048 * t.val, hr'⟩ l) := by
    rw [xblk_apply V c t ⟨r.val - 2048 * t.val, hr'⟩ l hr]
    exact congrArg (fun r' => xarr V c (ix2 r' l)) (Fin.ext (by
      show r.val = 2048 * t.val + (r.val - 2048 * t.val)
      omega))
  rw [e]
  exact le_blockAmax _ _ _

/-- The first point leaves `max 0 (the block's largest absolute value)`. -/
theorem acc_A (c : Dev nD) (t : Fin cfg0.N) (h0 : t.val % 16 = 0) (j : S1x1.Idx) :
    (outsAt0 V c t.val t.isLt : S1x1.Idx → EReal) j = max 0 (blockAmax (R := 2048) (L := 1024) (xblk V c t)) := by
  refine (congrFun ((outsAt0_A V c t h0).trans (out_A (F := Ideal) c (grid0.coords t) (ms0_0 t) (hs0_0 t) (ms0_1 t)
    (hs0_1 t) ((hcond0_0 t).mpr h0) (iblk0 V c 0 t))) j).trans ?_
  refine (pay2_apply (iblk0 V c 0 t) (k0_pay1 (F := Ideal)) j).trans ?_
  rw [pay1_apply]

/-- A later point leaves the maximum of what the point before left and its block's largest absolute value. -/
theorem acc_B (c : Dev nD) (t : Fin cfg0.N) (h0 : ¬t.val % 16 = 0) (j : S1x1.Idx) :
    (outsAt0 V c t.val t.isLt : S1x1.Idx → EReal) j
      = max ((outsAt0 V c (t.val - 1) (Nat.lt_of_le_of_lt (Nat.sub_le _ _) t.isLt) : S1x1.Idx → EReal) j)
          (blockAmax (R := 2048) (L := 1024) (xblk V c t)) := by
  refine (congrFun ((outsAt0_B V c t h0).trans (out_B (F := Ideal) c (grid0.coords t) (ms0_0 t) (hs0_0 t) (ms0_1 t)
    (hs0_1 t) (fun h => h0 ((hcond0_0 t).mp h)) (iblk0 V c 0 t)
    (outsAt0 V c (t.val - 1) (Nat.lt_of_le_of_lt (Nat.sub_le _ _) t.isLt)))) j).trans ?_
  exact pay2_apply (iblk0 V c 0 t) (outsAt0 V c (t.val - 1) (Nat.lt_of_le_of_lt (Nat.sub_le _ _) t.isLt)) j

/-! ## The two bounds on the running value, by induction on the point -/

/-- The running value never exceeds the array's largest absolute value. -/
theorem acc_le (c : Dev nD) : ∀ (n : ℕ) (hn : n < cfg0.N) (j : S1x1.Idx),
    (outsAt0 V c n hn : S1x1.Idx → EReal) j ≤ amax (xarr V c)
  | 0, hn, j => by
    rw [acc_A V c ⟨0, hn⟩ rfl j]
    exact max_le (amax_nonneg (xarr V c) (ix2 (0 : Fin 32768) (0 : Fin 1024))) (blk_le_amax V c ⟨0, hn⟩)
  | n + 1, hn, j => by
    have hN : cfg0.N = 16 := N_0
    have hB : ¬(⟨n + 1, hn⟩ : Fin cfg0.N).val % 16 = 0 := by dsimp only; omega
    rw [acc_B V c ⟨n + 1, hn⟩ hB j]
    exact max_le (acc_le c n _ j) (blk_le_amax V c ⟨n + 1, hn⟩)

/-- After point `n` the running value dominates the absolute value of every entry in the rows of blocks `0 … n`. -/
theorem le_acc (c : Dev nD) : ∀ (n : ℕ) (hn : n < cfg0.N) (j : S1x1.Idx) (r : Fin 32768) (l : Fin 1024),
    r.val < 2048 * (n + 1) →
      max (xarr V c (ix2 r l)) (-(xarr V c (ix2 r l))) ≤ (outsAt0 V c n hn : S1x1.Idx → EReal) j
  | 0, hn, j, r, l, hr => by
    rw [acc_A V c ⟨0, hn⟩ rfl j]
    exact le_max_of_le_right (entry_le_blk V c ⟨0, hn⟩ r l (by show 2048 * 0 ≤ r.val; omega)
      (by show r.val < 2048 * (0 + 1); omega))
  | n + 1, hn, j, r, l, hr => by
    have hN : cfg0.N = 16 := N_0
    have hB : ¬(⟨n + 1, hn⟩ : Fin cfg0.N).val % 16 = 0 := by dsimp only; omega
    rw [acc_B V c ⟨n + 1, hn⟩ hB j]
    by_cases h : r.val < 2048 * (n + 1)
    · exact le_max_of_le_left (le_acc c n _ j r l h)
    · exact le_max_of_le_right (entry_le_blk V c ⟨n + 1, hn⟩ r l (by show 2048 * (n + 1) ≤ r.val; omega)
        (by show r.val < 2048 * (n + 1 + 1); omega))

/-- So after the last point the cell holds the array's largest absolute value. -/
theorem outs_last (c : Dev nD) (h : 15 < cfg0.N) :
    (outsAt0 V c 15 h : S1x1.Idx → EReal) = fun _ => amax (xarr V c) :=
  funext fun j => le_antisymm (acc_le V c 15 h j) (amax_le fun i => by
    obtain ⟨r, l, rfl⟩ : ∃ (r : Fin 32768) (l : Fin 1024), i = ix2 r l := ⟨i 0, i 1, eq_ix2 i⟩
    exact le_acc V c 15 h j r l (by have := r.isLt; omega))

/-! ## The result array -/

/-- The 1 × 1 result: the array's largest absolute value. -/
abbrev result (c : Dev nD) : Buf (Elt Ideal) ((c : Thread nD τ).loc main_v0) := fun _ => amax (xarr V c)

/-- The one write-back, after the last point, writes it. -/
theorem flushed_eq (c : Dev nD) (t : Fin cfg0.N) (hf : (cfg0.win 1).flush t = true) :
    (dat0 V c).flushed 1 t = ((cfg0.win 1).blk t).view.read (Elt Ideal) (result V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1]
  rw [show outsAt0 V c t0_15.val t0_15.isLt = fun _ => amax (xarr V c) from outs_last V c t0_15.isLt]
  funext y
  rw [View.read_apply]
  exact (cast_eq _ _).symm

theorem arr_amax0 (c : Dev nD) :
    ((dat0 (F := Ideal) V c).arrAt 1 cfg0.N : S1x1.Idx → EReal)
      = fun _ => Cert.QuantGemm.amax (V c main_arg0 : S32768x1024.Idx → EReal) :=
  (dat0 V c).arrAt_eq_of_cover 1 (result V c) (flushed_eq V c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_15 0 * win0_1.size 0 ≤ (i 0 : Nat)
          ∧ (i 0 : Nat) < win0_1.index t0_15 0 * win0_1.size 0 + win0_1.xsize (grid0.coords t0_15) 0
        rw [show win0_1.index t0_15 0 * win0_1.size 0 = 0 from by decide +kernel,
          show win0_1.xsize (grid0.coords t0_15) 0 = 1 from by decide +kernel]
        omega
      | ⟨1, _⟩ =>
        show win0_1.index t0_15 1 * win0_1.size 1 ≤ (i 1 : Nat)
          ∧ (i 1 : Nat) < win0_1.index t0_15 1 * win0_1.size 1 + win0_1.xsize (grid0.coords t0_15) 1
        rw [show win0_1.index t0_15 1 * win0_1.size 1 = 0 from by decide +kernel,
          show win0_1.xsize (grid0.coords t0_15) 1 = 1 from by decide +kernel]
        omega⟩

end Cert.KernelIdeal.Region0
end
-- ==== Proof.Amax1.lean ====
import proofs.«145302_j49031346651645_1_alg».proof.Proof.Spec
import proofs.«145302_j49031346651645_1_alg».proof.Proof.Gen.KernelIdeal.Frame
import proofs.«145302_j49031346651645_1_alg».proof.Proof.MaxFold
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-
  The value of the second abs-max reduction: the same body on a grid of one point whose block is the whole
  1024 × 1024 array. The 1 × 1 cell is reset to 0 and then takes the maximum of 0 and the block's largest absolute
  value, which is the array's: 0 is below it, every entry of the block is an entry of the array, and conversely.
-/

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

open Cert.QuantGemm

/-! ## What the one grid point leaves in the cell, for any float values -/

section AnyValues
variable {F : FTy → Type} [FloatOps F]

/-- The zero offsets, as the constant function. -/
theorem hz : (![0, 0] : Fin 2 → Nat) = fun _ => 0 := funext fun a => by fin_cases a <;> rfl

/-- The cell is reset, read back, and ends at the accumulating store's payload of the block and the reset value. -/
theorem out_A (c : Dev nD) (i : grid1.Coords) (a1 : Memref sig .tc .vmem S1024x1024 .f32) (h1 : a1.IsWhole)
    (a2 : Memref sig .tc .vmem S1x1 .f32) (h2 : a2.IsWhole) (hc : cond1_0 i) (x : Vec F S1024x1024 .f32) :
    out1_A_1 c i a1 h1 a2 h2 hc x = k1_pay2 x (k1_pay1 (F := F)) := by
  unfold out1_A_1
  rw [View.read_writes_eq_canon _ _ _ (cover1_A_1 c i a1 h1 a2 h2 hc x)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S1024x1024) hz]

end AnyValues

/-! ## The payloads over the extended reals -/

/-- The lane reduction at row `r`: the fold of `max` from `-∞` over the row's lanes. -/
theorem laneMax_apply (v : FVec Ideal S1024x1024 .f32) (r : Fin 1024) :
    multiReduction (F := Ideal) .maximumf [1] S1024 v 0xFF800000#32 reduces_S1024x1024_S1024 (.inl rfl) rfl (ix1 r)
      = (Finset.univ : Finset (Fin 1024)).fold max (⊥ : EReal) fun l => v (ix2 r l) := by
  refine (Ideal.multiReduction_maximumf_single v 0xFF800000#32 reduces_S1024x1024_S1024 (.inl rfl) rfl (ix1 r)).trans ?_
  rw [show (FloatOps.ofBits .f32 0xFF800000#32 : Ideal .f32) = (⊥ : EReal) from ofBits_neg_inf]
  refine Finset.fold_congr fun l _ => ?_
  exact congrArg v (funext fun a => Fin.ext (by match a with | ⟨0, _⟩ => rfl | ⟨1, _⟩ => rfl))

/-- The row reduction of a one-lane column: the fold of `max` from `-∞` over the rows. -/
theorem rowMax_apply (v : FVec Ideal S1024x1 .f32) (q : Fin 1) :
    multiReduction (F := Ideal) .maximumf [0] S1 v 0xFF800000#32 reduces_S1024x1_S1 (.inl rfl) rfl (ix1 q)
      = (Finset.univ : Finset (Fin 1024)).fold max (⊥ : EReal) fun r => v (ix2 r q) := by
  refine (Ideal.multiReduction_maximumf_single v 0xFF800000#32 reduces_S1024x1_S1 (.inl rfl) rfl (ix1 q)).trans ?_
  rw [show (FloatOps.ofBits .f32 0xFF800000#32 : Ideal .f32) = (⊥ : EReal) from ofBits_neg_inf]
  refine Finset.fold_congr fun r _ => ?_
  exact congrArg v (funext fun a => Fin.ext (by match a with | ⟨0, _⟩ => rfl | ⟨1, _⟩ => rfl))

/-- A vector of rows viewed as a one-lane column reads row `i` at `(i, u)`: the same row-major position. -/
theorem shapeCast_col_apply (v : FVec Ideal S1024 .f32) (i : Fin 1024) (u : Fin 1) :
    shapeCast S1024x1 v shapeCasts_S1024_S1024x1 (ix2 i u) = v (ix1 i) :=
  shapeCast_apply v shapeCasts_S1024_S1024x1 _ _ (by
    have hu : u.val = 0 := by omega
    rw [Shape.rowMajor_val_two, Shape.rowMajor_val_one]
    show i.val = i.val * 1 + u.val
    omega)

/-- The accumulating store's payload: the previous value against the block's largest absolute value. -/
theorem pay2_apply (x : Vec Ideal S1024x1024 .f32) (xo : Vec Ideal S1x1 .f32) (j : S1x1.Idx) :
    (k1_pay2 (F := Ideal) x xo : S1x1.Idx → EReal) j = max (xo j) (blockAmax (R := 1024) (L := 1024) x) := by
  obtain ⟨p, q, rfl⟩ : ∃ (p : Fin 1) (q : Fin 1), j = ix2 p q := ⟨j 0, j 1, eq_ix2 j⟩
  unfold k1_pay2
  dsimp only
  refine (maximumf_apply _ _ _).trans ?_
  rw [shapeCast_self]
  refine congrArg (max (xo (ix2 p q))) ?_
  refine (shapeCast_a_1a_apply _ shapeCasts_S1_S1x1 p q).trans ?_
  refine (rowMax_apply _ q).trans ?_
  unfold blockAmax
  refine Finset.fold_congr fun r _ => ?_
  refine (shapeCast_col_apply _ r q).trans ?_
  refine (laneMax_apply _ r).trans ?_
  rfl

/-- The reset store's payload is `0` everywhere. -/
theorem pay1_apply (j : S1x1.Idx) : (k1_pay1 (F := Ideal) : S1x1.Idx → EReal) j = 0 := by
  unfold k1_pay1
  exact Ideal.ofBits_zero_f32

/-! ## The array, its one block, and the cell -/

variable (V : (c : Dev nD) → (b : Ref sig .tc) → Buf (Elt Ideal) ((c : Thread nD τ).loc b))

/-- The 1024 × 1024 argument as the reduction finds it. -/
abbrev warr (c : Dev nD) : S1024x1024.Idx → EReal := V c main_arg1

/-- Its block at the grid's point. -/
abbrev wblk (c : Dev nD) (t : Fin cfg1.N) : Vec Ideal S1024x1024 .f32 := iblk1 V c 0 t

/-- The input's block index is `(0, 0)`. -/
theorem idx_facts : ∀ t : Fin cfg1.N, win1_0.index t 0 = 0 ∧ win1_0.index t 1 = 0 :=
  (by decide +kernel : ∀ t : Fin grid1.N, win1_0.index t 0 = 0 ∧ win1_0.index t 1 = 0)

/-- The block is the array: entry `(r, l)` of the one is entry `(r, l)` of the other. -/
theorem wblk_apply (c : Dev nD) (t : Fin cfg1.N) (r : Fin 1024) (l : Fin 1024) :
    wblk V c t (ix2 r l) = warr V c (ix2 r l) := by
  have hi := idx_facts t
  unfold wblk iblk1
  rw [View.read_apply]
  show V c main_arg1 _ = V c main_arg1 _
  refine congrArg (V c main_arg1) (funext fun a => Fin.ext ?_)
  match a with
  | ⟨0, _⟩ => show win1_0.index t 0 * 1024 + 1 * r.val = r.val; rw [hi.1]; omega
  | ⟨1, _⟩ => show win1_0.index t 1 * 1024 + 1 * l.val = l.val; rw [hi.2]; omega

/-- The point leaves `max 0 (the block's largest absolute value)`. -/
theorem acc_A (c : Dev nD) (t : Fin cfg1.N) (j : S1x1.Idx) :
    (outsAt1 V c t : S1x1.Idx → EReal) j = max 0 (blockAmax (R := 1024) (L := 1024) (wblk V c t)) := by
  unfold outsAt1
  refine (congrFun (out_A (F := Ideal) c (grid1.coords t) (ms1_0 t) (hs1_0 t) (ms1_1 t) (hs1_1 t) (hcond1_0 t)
    (iblk1 V c 0 t)) j).trans ?_
  refine (pay2_apply (iblk1 V c 0 t) (k1_pay1 (F := Ideal)) j).trans ?_
  rw [pay1_apply]

/-- Which is the array's largest absolute value: `0` and every entry of the block are below it, and every entry of the
    array is an entry of the block. -/
theorem outs_eq (c : Dev nD) (t : Fin cfg1.N) :
    (outsAt1 V c t : S1x1.Idx → EReal) = fun _ => amax (warr V c) :=
  funext fun j => by
    rw [acc_A V c t j]
    refine le_antisymm (max_le (amax_nonneg (warr V c) (ix2 (0 : Fin 1024) (0 : Fin 1024)))
      (blockAmax_le fun r l => ?_)) (amax_le fun i => ?_)
    · rw [wblk_apply V c t r l]
      exact le_amax _ _
    · obtain ⟨r, l, rfl⟩ : ∃ (r : Fin 1024) (l : Fin 1024), i = ix2 r l := ⟨i 0, i 1, eq_ix2 i⟩
      rw [← wblk_apply V c t r l]
      exact le_max_of_le_right (le_blockAmax _ r l)

/-! ## The result array -/

/-- The 1 × 1 result: the array's largest absolute value. -/
abbrev result (c : Dev nD) : Buf (Elt Ideal) ((c : Thread nD τ).loc main_v1) := fun _ => amax (warr V c)

/-- The write-back after the point writes it. -/
theorem flushed_eq (c : Dev nD) (t : Fin cfg1.N) (hf : (cfg1.win 1).flush t = true) :
    (dat1 V c).flushed 1 t = ((cfg1.win 1).blk t).view.read (Elt Ideal) (result V c) := by
  obtain rfl : t = t1_0 := fin_N1 t
  show (cfg1.win 1).cut (grid1.coords t1_0) ((dat1 V c).after 1 t1_0) = _
  rw [after1_1]
  rw [show outsAt1 V c t1_0 = fun _ => amax (warr V c) from outs_eq V c t1_0]
  funext y
  rw [View.read_apply]
  exact (cast_eq _ _).symm

theorem arr_amax1 (c : Dev nD) :
    ((dat1 (F := Ideal) V c).arrAt 1 cfg1.N : S1x1.Idx → EReal)
      = fun _ => Cert.QuantGemm.amax (V c main_arg1 : S1024x1024.Idx → EReal) :=
  (dat1 V c).arrAt_eq_of_cover 1 (result V c) (flushed_eq V c) fun i =>
    ⟨t1_0, flush1_1 t1_0, by
      show i ∈ ((View.whole main_v1).slice (win1_1.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_1.index t1_0 0 * win1_1.size 0 ≤ (i 0 : Nat)
          ∧ (i 0 : Nat) < win1_1.index t1_0 0 * win1_1.size 0 + win1_1.xsize (grid1.coords t1_0) 0
        rw [show win1_1.index t1_0 0 * win1_1.size 0 = 0 from by decide +kernel,
          show win1_1.xsize (grid1.coords t1_0) 0 = 1 from by decide +kernel]
        omega
      | ⟨1, _⟩ =>
        show win1_1.index t1_0 1 * win1_1.size 1 ≤ (i 1 : Nat)
          ∧ (i 1 : Nat) < win1_1.index t1_0 1 * win1_1.size 1 + win1_1.xsize (grid1.coords t1_0) 1
        rw [show win1_1.index t1_0 1 * win1_1.size 1 = 0 from by decide +kernel,
          show win1_1.xsize (grid1.coords t1_0) 1 = 1 from by decide +kernel]
        omega⟩

end Cert.KernelIdeal.Region1
end
-- ==== Proof.Gemm2.lean ====
/-
  The value of the fused quantize + product + bias region at the ideal values, for any contents of the arrays it
  reads: its result array is the layer `gemm` of the two one-entry scales, the activations, the weights and the
  bias row. First the body's payload at one entry of a 512 × 1024 block; then the block each grid point writes back
  as a block of the layer; then the 64 row blocks cover the result.
-/
import proofs.«145302_j49031346651645_1_alg».proof.Proof.Spec
import proofs.«145302_j49031346651645_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.QuantGemm

/-! ## The block product at an index

The kernel's product contracts axis 1 of the activations' block with axis 1 of the weights (the weights are stored
output-major), so entry (p, q) is the sum over k of A[p, k] · B[q, k]. -/

theorem lhs_mm_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_mm_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_mm_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_mm_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block product into the zero accumulator, read at (p, q): the sum over the shared axis. -/
theorem matmul_ix (A : FVec Ideal S512x1024 .bf16) (B : FVec Ideal S1024x1024 .bf16) (p : Fin 512) (q : Fin 1024) :
    matmul dot_S512x1024_S1024x1024_S512x1024_1_1_0_0_n_n none A B (constant (F := Ideal) S512x1024 .f32 0x00000000#32) (ix2 p q)
      = ∑ k : Fin 1024, A (ix2 p k) * B (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-! ## The payload at an index

Every operation of the body but the product and the three broadcasts of blocks is pointwise, and narrowing to bf16
changes nothing at the ideal values. -/

/-- A one-entry block broadcast over a two-axis block reads its one entry everywhere. -/
theorem bcast11_apply {a b : ℕ} (v : S1x1.Idx → EReal) (h : S1x1.Broadcasts ⟨2, ![a, b]⟩) (p : Fin a) (q : Fin b) :
    broadcastTo ⟨2, ![a, b]⟩ v h (ix2 p q) = v (ix2 0 0) := by
  refine broadcastTo_apply v h (ix2 p q) (ix2 0 0) fun ax => ?_
  match ax with
  | ⟨0, _⟩ => rfl
  | ⟨1, _⟩ => rfl

/-- The quantize-and-dequantize chain of the body on a block whose scale has been broadcast over it: at an entry
    where the broadcast scale is `s` it is `qdq s` of the entry. -/
theorem qdq_chain {S : Shape} (x sb : FVec Ideal S .f32) (h : FTy.bits .bf16 < FTy.bits .f32) (j : S.Idx) (s : EReal) (hs : sb j = s) :
    (truncf .bf16 (divf (divf (roundeven (mulf (minimumf (broadcast S (Scalar.ofBits .f32 0x43E00000#32))
        (maximumf (broadcast S (Scalar.ofBits .f32 0xC3E00000#32)) (mulf x sb))) (broadcast S (Scalar.ofBits .f32 0x41000000#32))))
        (broadcast S (Scalar.ofBits .f32 0x41000000#32))) sb) h : FVec Ideal S .bf16) j
      = qdq s (x j) := by
  subst hs; rfl

/-- The body's payload at entry (p, q) of the block: the sum over k of the dequantized activation (p, k) times the
    dequantized weight (q, k), plus the bias at q. -/
theorem pay_apply (s t : Vec Ideal S1x1 .f32) (x : Vec Ideal S512x1024 .f32) (w : Vec Ideal S1024x1024 .f32)
    (b : Vec Ideal S1x1024 .f32) (p : Fin 512) (q : Fin 1024) :
    (k2_pay1 (F := Ideal) s t x w b : S512x1024.Idx → EReal) (ix2 p q)
      = (∑ k : Fin 1024, qdq ((s : S1x1.Idx → EReal) (ix2 0 0)) ((x : S512x1024.Idx → EReal) (ix2 p k))
            * qdq ((t : S1x1.Idx → EReal) (ix2 0 0)) ((w : S1024x1024.Idx → EReal) (ix2 q k)))
          + (b : S1x1024.Idx → EReal) (ix2 0 q) := by
  unfold k2_pay1
  simp only [shapeCast_self]
  refine (addf_apply _ _ _).trans ?_
  rw [matmul_ix, broadcastTo_1b_ab_apply]
  congr 1
  refine Finset.sum_congr rfl fun k _ => ?_
  rw [qdq_chain _ _ _ _ _ (bcast11_apply s _ p k), qdq_chain _ _ _ _ _ (bcast11_apply t _ q k)]

/-! ## From a block to the whole array

The grid has 64 points; point `t` reads rows `512·t … 512·t + 511` of the activations, the whole weights, the whole
bias row and the two one-entry scales, and writes rows `512·t … 512·t + 511` of the result. -/

variable (V : (c : Dev nD) → (b : Ref sig .tc) → Buf (Elt Ideal) ((c : Thread nD τ).loc b))

theorem hz : (![0, 0] : Fin 2 → Nat) = fun _ => 0 := funext fun a => by fin_cases a <;> rfl

/-- The layer at an index, spelt out. -/
theorem gemm_apply (sx sw : EReal) (x : SX.Idx → EReal) (w : SW.Idx → EReal) (bias : Fin 1024 → EReal) (i : SX.Idx) :
    gemm sx sw x w bias i = (∑ k : Fin 1024, qdq sx (x (ix2 (i 0) k)) * qdq sw (w (ix2 (i 1) k))) + bias (i 1) := rfl

/-- What the body leaves in the output's buffer, at entry (p, q), from the input buffers' contents: the one
    whole-block store of the payload over the whole-block loads. -/
theorem out_apply (x0 : Vec Ideal S512x1024 .f32) (x1 : Vec Ideal S1024x1024 .f32) (x2 : Vec Ideal S1x1024 .f32)
    (x3 x4 : Vec Ideal S1x1 .f32) (p : Fin 512) (q : Fin 1024) :
    (out2_5 (F := Ideal) x0 x1 x2 x3 x4 : S512x1024.Idx → EReal) (ix2 p q)
      = (∑ k : Fin 1024, qdq ((x3 : S1x1.Idx → EReal) (ix2 0 0)) ((x0 : S512x1024.Idx → EReal) (ix2 p k))
            * qdq ((x4 : S1x1.Idx → EReal) (ix2 0 0)) ((x1 : S1024x1024.Idx → EReal) (ix2 q k)))
          + (x2 : S1x1024.Idx → EReal) (ix2 0 q) := by
  unfold out2_5
  rw [View.canon_unit_zero hz]
  simp only [View.ld_unit_zero (S := S512x1024) hz, View.ld_unit_zero (S := S1024x1024) hz,
    View.ld_unit_zero (S := S1x1024) hz, View.ld_unit_zero (S := S1x1) hz]
  exact pay_apply x3 x4 x0 x1 x2 p q

/-- The same, against the layer at an array index `i`, once each input buffer's entries are known to be the
    arrays' entries that `i` names. -/
theorem out_eq_gemm (x0 : Vec Ideal S512x1024 .f32) (x1 : Vec Ideal S1024x1024 .f32) (x2 : Vec Ideal S1x1024 .f32)
    (x3 x4 : Vec Ideal S1x1 .f32) (sx sw : EReal) (X : SX.Idx → EReal) (W : SW.Idx → EReal) (B : Fin 1024 → EReal)
    (p : Fin 512) (q : Fin 1024) (i : SX.Idx)
    (h3 : (x3 : S1x1.Idx → EReal) (ix2 0 0) = sx) (h4 : (x4 : S1x1.Idx → EReal) (ix2 0 0) = sw)
    (h0 : ∀ k : Fin 1024, (x0 : S512x1024.Idx → EReal) (ix2 p k) = X (ix2 (i 0) k))
    (h1 : ∀ k : Fin 1024, (x1 : S1024x1024.Idx → EReal) (ix2 q k) = W (ix2 (i 1) k))
    (h2 : (x2 : S1x1024.Idx → EReal) (ix2 0 q) = B (i 1)) :
    (out2_5 (F := Ideal) x0 x1 x2 x3 x4 : S512x1024.Idx → EReal) (ix2 p q) = gemm sx sw X W B i := by
  rw [out_apply, gemm_apply, h3, h4, h2]
  congr 1
  exact Finset.sum_congr rfl fun k _ => by rw [h0 k, h1 k]

/-- At each of the 64 grid points the activations' and the result's block index is the point's number on the row
    axis and zero on the column axis; every other window stays at block (0, 0). -/
theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every row block of the result is some point's. -/
theorem idx_onto : ∀ q0 : Fin 64, ∃ t : Fin cfg2.N, win2_5.index t = ![q0.val, 0] :=
  (by decide +kernel : ∀ q0 : Fin 64, ∃ t : Fin grid2.N, win2_5.index t = ![q0.val, 0])

/-- The activations' block at point `t`: row `p` of the block is row `512·t + p` of the array. -/
theorem blk0_apply (c : Dev nD) (t : Fin cfg2.N) (p : Fin 512) (k : Fin 1024) (r : Fin 32768) (hr : r.val = 512 * t.val + p.val) :
    (iblk2 V c 0 t : S512x1024.Idx → EReal) (ix2 p k) = (V c main_arg0 : S32768x1024.Idx → EReal) (ix2 r k) := by
  obtain ⟨e0, e1, -⟩ := idx_facts t
  show (V c main_arg0 : S32768x1024.Idx → EReal) (((cfg2.win 0).blk t).view.emb (ix2 p k)) = _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The weights' block at every point is the whole array. -/
theorem blk1_apply (c : Dev nD) (t : Fin cfg2.N) (q k : Fin 1024) (n : Fin 1024) (hn : n.val = q.val) :
    (iblk2 V c 1 t : S1024x1024.Idx → EReal) (ix2 q k) = (V c main_arg1 : S1024x1024.Idx → EReal) (ix2 n k) := by
  obtain ⟨-, -, e0, e1, -⟩ := idx_facts t
  show (V c main_arg1 : S1024x1024.Idx → EReal) (((cfg2.win 1).blk t).view.emb (ix2 q k)) = _
  congr 1
  funext a
  apply Fin.ext
  match a with
  | ⟨0, _⟩ => show win2_1.index t (0 : Fin 2) * 1024 + 1 * q.val = n.val; rw [e0, hn]; omega
  | ⟨1, _⟩ => show win2_1.index t (1 : Fin 2) * 1024 + 1 * k.val = k.val; rw [e1]; omega

/-- The bias row's block at every point is the whole row. -/
theorem blk2_apply (c : Dev nD) (t : Fin cfg2.N) (q : Fin 1024) (n : Fin 1024) (hn : n.val = q.val) :
    (iblk2 V c 2 t : S1x1024.Idx → EReal) (ix2 0 q) = (V c main_v16 : S1x1024.Idx → EReal) (ix2 0 n) := by
  obtain ⟨-, -, -, -, e0, e1, -⟩ := idx_facts t
  show (V c main_v16 : S1x1024.Idx → EReal) (((cfg2.win 2).blk t).view.emb (ix2 0 q)) = _
  congr 1
  funext a
  apply Fin.ext
  match a with
  | ⟨0, _⟩ => show win2_2.index t (0 : Fin 2) * 1 + 1 * 0 = 0; rw [e0]
  | ⟨1, _⟩ => show win2_2.index t (1 : Fin 2) * 1024 + 1 * q.val = n.val; rw [e1, hn]; omega

/-- The activations' scale: its one-entry block is its one-entry array. -/
theorem blk3_apply (c : Dev nD) (t : Fin cfg2.N) :
    (iblk2 V c 3 t : S1x1.Idx → EReal) (ix2 0 0) = (V c main_v8 : S1x1.Idx → EReal) (ix2 0 0) := by
  obtain ⟨-, -, -, -, -, -, e0, e1, -⟩ := idx_facts t
  show (V c main_v8 : S1x1.Idx → EReal) (((cfg2.win 3).blk t).view.emb (ix2 0 0)) = _
  congr 1
  funext a
  apply Fin.ext
  match a with
  | ⟨0, _⟩ => show win2_3.index t (0 : Fin 2) * 1 + 1 * 0 = 0; rw [e0]
  | ⟨1, _⟩ => show win2_3.index t (1 : Fin 2) * 1 + 1 * 0 = 0; rw [e1]

/-- The weights' scale likewise. -/
theorem blk4_apply (c : Dev nD) (t : Fin cfg2.N) :
    (iblk2 V c 4 t : S1x1.Idx → EReal) (ix2 0 0) = (V c main_v15 : S1x1.Idx → EReal) (ix2 0 0) := by
  obtain ⟨-, -, -, -, -, -, -, -, e0, e1, -⟩ := idx_facts t
  show (V c main_v15 : S1x1.Idx → EReal) (((cfg2.win 4).blk t).view.emb (ix2 0 0)) = _
  congr 1
  funext a
  apply Fin.ext
  match a with
  | ⟨0, _⟩ => show win2_4.index t (0 : Fin 2) * 1 + 1 * 0 = 0; rw [e0]
  | ⟨1, _⟩ => show win2_4.index t (1 : Fin 2) * 1 + 1 * 0 = 0; rw [e1]

/-- The layer of the arrays as the region finds them. -/
abbrev G (c : Dev nD) : SX.Idx → EReal :=
  gemm ((V c main_v8 : S1x1.Idx → EReal) (ix2 0 0)) ((V c main_v15 : S1x1.Idx → EReal) (ix2 0 0))
    (V c main_arg0) (V c main_arg1) (fun n => (V c main_v16 : S1x1024.Idx → EReal) (ix2 0 n))

/-- What point `t` writes back is block `t` of the layer. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  obtain ⟨-, -, -, -, -, -, -, -, -, -, e0, e1⟩ := idx_facts t
  funext j
  obtain ⟨p, q, rfl⟩ : ∃ (p : Fin 512) (q : Fin 1024), j = ix2 p q := ⟨j 0, j 1, eq_ix2 j⟩
  show (out2_5 (F := Ideal) (iblk2 V c 0 t) (iblk2 V c 1 t) (iblk2 V c 2 t) (iblk2 V c 3 t) (iblk2 V c 4 t) : S512x1024.Idx → EReal) (ix2 p q)
      = G V c (((cfg2.win 5).blk t).view.emb (ix2 p q))
  have hr : ((((cfg2.win 5).blk t).view.emb (ix2 p q)) 0).val = 512 * t.val + p.val := by
    show win2_5.index t (0 : Fin 2) * 512 + 1 * p.val = _
    rw [e0]; omega
  have hq : ((((cfg2.win 5).blk t).view.emb (ix2 p q)) 1).val = q.val := by
    show win2_5.index t (1 : Fin 2) * 1024 + 1 * q.val = _
    rw [e1]; omega
  exact out_eq_gemm (iblk2 V c 0 t) (iblk2 V c 1 t) (iblk2 V c 2 t) (iblk2 V c 3 t) (iblk2 V c 4 t) _ _ _ _ _ p q _
    (blk3_apply V c t) (blk4_apply V c t) (fun k => blk0_apply V c t p k _ hr) (fun k => blk1_apply V c t q k _ hq)
    (blk2_apply V c t q _ hq)

/-- An index of the result is in point `t`'s block iff each coordinate is in the block's range on its axis. -/
theorem mem_blk (t : Fin cfg2.N) (i : S32768x1024.Idx) :
    i ∈ ((cfg2.win 5).blk t).view.set ↔ ∀ a : Fin 2, win2_5.index t a * S512x1024.size a ≤ (i a).val ∧ (i a).val < win2_5.index t a * S512x1024.size a + S512x1024.size a := by
  show i ∈ ((View.whole main_v17).slice (win2_5.rect t)).set ↔ _
  rw [View.set_slice_whole, Rect.mem_set_unit]
  exact Iff.rfl

/-- Row `r` of the result is in the block of point `r / 512`, which writes back. -/
theorem cover (i : S32768x1024.Idx) :
    ∃ t : Fin cfg2.N, (cfg2.win 5).flush t = true ∧ i ∈ ((cfg2.win 5).blk t).view.set := by
  have hi0 : (i 0).val < 32768 := (i 0).isLt
  have hi1 : (i 1).val < 1024 := (i 1).isLt
  obtain ⟨t, ht⟩ := idx_onto ⟨(i 0).val / 512, by omega⟩
  have q0 : win2_5.index t (0 : Fin 2) = (i 0).val / 512 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 1024 ≤ (i 1).val ∧ (i 1).val < win2_5.index t (1 : Fin 2) * 1024 + 1024; omega

/-- The result array after the region's 64 points is the layer of the arrays as the region finds them: the two
    one-entry scales, the activations, the weights and the bias row. -/
theorem arr_out (c : Dev nD) :
    ((dat2 (F := Ideal) V c).arrAt 5 cfg2.N : S32768x1024.Idx → EReal)
      = Cert.QuantGemm.gemm ((V c main_v8 : S1x1.Idx → EReal) (ix2 0 0)) ((V c main_v15 : S1x1.Idx → EReal) (ix2 0 0))
          (V c main_arg0) (V c main_arg1) (fun n => (V c main_v16 : S1x1024.Idx → EReal) (ix2 0 n)) :=
  (dat2 (F := Ideal) V c).arrAt_eq_of_cover 5 (G V c) (fun t _ => flushed_eq V c t) cover

end Cert.KernelIdeal.Region2

end
-- ==== Proof.Result.lean ====
/-
  The idealized kernel's run, read: its result array ends holding the specification's `layer` of the launched arrays.

  The program is three kernel regions among host operations. The first two regions each leave, in a `1 × 1` array, the
  largest absolute value of the activations and of the weights; the host operations between turn each into its
  quantization scale; the third region, entered with the activations, the weights, the bias as a row and the two scales,
  writes `gemm` of them block of rows by block of rows. Composing the three with what the third region finds when it is
  entered gives `layer` of the launched activations, weights and bias.
-/
import proofs.«145302_j49031346651645_1_alg».proof.Proof.Spec
import proofs.«145302_j49031346651645_1_alg».proof.Proof.NamedRun
import proofs.«145302_j49031346651645_1_alg».proof.Proof.Glue
import proofs.«145302_j49031346651645_1_alg».proof.Proof.Amax0
import proofs.«145302_j49031346651645_1_alg».proof.Proof.Amax1
import proofs.«145302_j49031346651645_1_alg».proof.Proof.Gemm2

noncomputable section

namespace Cert.KernelIdeal.Result

open Cert.KernelIdeal Cert.KernelIdeal.Gen Cert.KernelIdeal.Glue
open Idealize.ShloMosaic Idealize.ShloMosaic.TcCoe Idealize.SL.Sem Idealize.ShloMosaic.ValueIdx

variable (m : (ℓ : Loc nD τ sig) → Buf (Elt Ideal) ℓ) (ρ : Dev nD → PrngReg)

/-- The result array after the run: the third region's output at the scales of the two largest absolute values the
    first two regions found, over the activations, weights and bias as launched. -/
theorem result_eq (c : Dev nD) :
    (W8 m ρ c (Proc.devRef .tc main_v17) : S32768x1024.Idx → EReal)
      = Cert.QuantGemm.layer (m ((c : Thread nD τ).loc main_arg0)) (m ((c : Thread nD τ).loc main_arg1)) (m ((c : Thread nD τ).loc main_arg2)) := by
  rw [result_is_region2_output, Cert.KernelIdeal.Region2.arr_out (V7 m ρ) c, xscale_at_region2, wscale_at_region2,
    Cert.KernelIdeal.Region0.arr_amax0 (V0 m ρ) c, Cert.KernelIdeal.Region1.arr_amax1 (V1 m ρ) c,
    x_at_region0, w_at_region1, x_at_region2, w_at_region2]
  unfold Cert.QuantGemm.layer
  exact congrArg _ (funext fun n => bias_at_region2 m ρ c n)

/-- Every weakly fair execution of the idealized kernel terminates, nothing faulting, with the result array at `layer`
    of the launched arrays and the three arguments unchanged. -/
theorem run : θ_run defs (onTc (τ := τ) (main (F := Ideal))) ⟨m, fun _ => 0, ρ⟩ (fun r => ∀ c : Dev nD,
      r.2.mem ((c.tc : Thread nD τ).loc main_v17)
        = Cert.QuantGemm.layer (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (Cert.KernelIdeal.NamedRun.run m ρ)

end Cert.KernelIdeal.Result

end
-- ==== Proof.RefLayer.lean ====
/-
  The reference program's result is the layer of the specification.

  The reference computes, for each operand, the largest absolute value (a maximum over both axes from `-∞`), the scale from
  it, and then entry by entry: scale, clamp to `[-448, 448]`, round to the nearest eighth, scale back. The result at row `r`,
  column `n` contracts the two dequantized operands over `k` and adds the bias at `n`. Each of these steps is read here at
  an index, and the whole is the specification's `layer`.
-/
import proofs.«145302_j49031346651645_1_alg».proof.Proof.Spec
import proofs.«145302_j49031346651645_1_alg».proof.Proof.Gen.ReferenceIdeal.Read
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.QuantGemm
open Idealize.ShloMosaic Idealize.ShloMosaic.ValueIdx

/-- The word `0xFF800000` is `-∞`: sign set, exponent all ones, fraction zero. -/
theorem ofBits_neg_inf : Ideal.ofBits .f32 0xFF800000#32 = ⊥ := by
  simp [Ideal.ofBits, Ideal.ieee]

/-- A maximum over every axis, from `-∞`, of the absolute values of an array is its largest absolute value: every index
    drops to the one scalar index, so the fold runs over all of them, and a fold of `max` from `⊥` is the supremum. -/
theorem reduce_max_abs_eq_amax {S : Shape} {axes : List (Fin S.rank)} (x : S.Idx → EReal)
    (h' : S.ReducesTo axes S_) (hu : 0 < S_.numel) (j : S_.Idx) :
    Host.reduce (FloatOps.maximumf (F := Ideal) (φ := .f32)) (fun i => max (x i) (-(x i)))
        (constant (F := Ideal) S_ .f32 0xFF800000#32) h' hu j
      = amax x := by
  rw [Host.reduce_eq_fold]
  have hall : (Finset.univ.filter fun i => h'.drop i = j) = Finset.univ :=
    Finset.filter_true_of_mem fun i _ => funext fun a => a.elim0
  rw [hall]
  show Finset.univ.fold max (Ideal.ofBits .f32 0xFF800000#32) (fun i => max (x i) (-(x i))) = amax x
  rw [ofBits_neg_inf]
  exact fold_max_eq_amax x

/-! ### The two largest absolute values -/

/-- The weights' reduce stage holds their largest absolute value. -/
theorem amax_w (w : FVec Ideal S1024x1024 .f32) (j : S_.Idx) :
    val_main_v1 (F := Ideal) w j = amax w := by
  unfold val_main_v1 val_main_v0 val_main_cst
  have habs : (Host.absf (F := Ideal) w) = fun i => max (w i) (-(w i)) := rfl
  rw [habs]
  exact reduce_max_abs_eq_amax w _ _ j

/-- The activations' reduce stage holds their largest absolute value. -/
theorem amax_x (x : FVec Ideal S32768x1024 .f32) (j : S_.Idx) :
    val_main_v15 (F := Ideal) x j = amax x := by
  unfold val_main_v15 val_main_v14 val_main_cst_9
  have habs : (Host.absf (F := Ideal) x) = fun i => max (x i) (-(x i)) := rfl
  rw [habs]
  exact reduce_max_abs_eq_amax x _ _ j

/-! ### The two scales -/

/-- The weights' scale: `448 / (amax·2 + ε)` clamped to `[ε, 10¹²]`. -/
theorem scale_w (w : FVec Ideal S1024x1024 .f32) (j : S_.Idx) :
    val_main_v5 (F := Ideal) w j = scaleOf (amax w) := by
  rw [val_main_v5_apply, val_main_call0_v2_apply, val_main_cst_4_apply, val_main_call0_v1_apply,
    val_main_call0_v0_apply, val_main_cst_3_apply, val_main_v4_apply, val_main_cst_2_apply, val_main_v3_apply,
    val_main_cst_1_apply, val_main_v2_apply, val_main_cst_0_apply, amax_w]
  generalize amax w = a
  rfl

/-- The activations' scale. -/
theorem scale_x (x : FVec Ideal S32768x1024 .f32) (j : S_.Idx) :
    val_main_v19 (F := Ideal) x j = scaleOf (amax x) := by
  rw [val_main_v19_apply, val_main_call3_v2_apply, val_main_cst_14_apply, val_main_call3_v1_apply,
    val_main_call3_v0_apply, val_main_cst_13_apply, val_main_v18_apply, val_main_cst_12_apply, val_main_v17_apply,
    val_main_cst_11_apply, val_main_v16_apply, val_main_cst_10_apply, amax_x]
  generalize amax x = a
  rfl

/-- The weights' scale, broadcast for the multiplication, is the scale at every entry. -/
theorem scale_w_mul (w : FVec Ideal S1024x1024 .f32) (i : S1024x1024.Idx) :
    val_main_v6 (F := Ideal) w i = scaleOf (amax w) := by
  rw [val_main_v6_apply, scale_w]

/-- The weights' scale, broadcast for the division back, is the scale at every entry. -/
theorem scale_w_div (w : FVec Ideal S1024x1024 .f32) (i : S1024x1024.Idx) :
    val_main_v30 (F := Ideal) w i = scaleOf (amax w) := by
  rw [val_main_v30_apply, scale_w]

/-- The activations' scale, broadcast for the multiplication, is the scale at every entry. -/
theorem scale_x_mul (x : FVec Ideal S32768x1024 .f32) (i : S32768x1024.Idx) :
    val_main_v20 (F := Ideal) x i = scaleOf (amax x) := by
  rw [val_main_v20_apply, scale_x]

/-- The activations' scale, broadcast for the division back, is the scale at every entry. -/
theorem scale_x_div (x : FVec Ideal S32768x1024 .f32) (i : S32768x1024.Idx) :
    val_main_v28 (F := Ideal) x i = scaleOf (amax x) := by
  rw [val_main_v28_apply, scale_x]

/-! ### Quantize and dequantize, entry by entry -/

/-- A weight entry after scaling, clamping, rounding to an eighth and scaling back. -/
theorem deq_w (w : FVec Ideal S1024x1024 .f32) (i : S1024x1024.Idx) :
    val_main_v31 (F := Ideal) w i = qdq (scaleOf (amax w)) (w i) := by
  rw [val_main_v31_apply, val_main_v13_apply, val_main_v11_apply, val_main_v10_apply, val_main_v8_apply,
    val_main_call1_v4_apply, val_main_call1_v3_apply, val_main_cst_6_apply, val_main_call1_v2_apply,
    val_main_call1_v1_apply, val_main_call1_v0_apply, val_main_cst_5_apply, val_main_v7_apply, scale_w_mul,
    val_main_v9_apply, val_main_cst_7_apply, val_main_v12_apply, val_main_cst_8_apply, scale_w_div]
  generalize scaleOf (amax w) = s
  generalize w i = v
  rfl

/-- An activation entry after scaling, clamping, rounding to an eighth and scaling back. -/
theorem deq_x (x : FVec Ideal S32768x1024 .f32) (i : S32768x1024.Idx) :
    val_main_v29 (F := Ideal) x i = qdq (scaleOf (amax x)) (x i) := by
  rw [val_main_v29_apply, val_main_v27_apply, val_main_v25_apply, val_main_v24_apply, val_main_v22_apply,
    val_main_call4_v4_apply, val_main_call4_v3_apply, val_main_cst_16_apply, val_main_call4_v2_apply,
    val_main_call4_v1_apply, val_main_call4_v0_apply, val_main_cst_15_apply, val_main_v21_apply, scale_x_mul,
    val_main_v23_apply, val_main_cst_17_apply, val_main_v26_apply, val_main_cst_18_apply, scale_x_div]
  generalize scaleOf (amax x) = s
  generalize x i = v
  rfl

/-! ### The index maps of the contraction and of the bias's two broadcasts -/

/-- The left operand is read at the result's row and the contracted coordinate. -/
theorem lidx_eq (r : Fin 32768) (n k : Fin 1024) : lidx_main_v32 (ix2 r n) k = ix2 r k :=
  funext fun a => Fin.ext (by match a with | ⟨0, _⟩ => rfl | ⟨1, _⟩ => rfl)

/-- The right operand is read at the result's column and the contracted coordinate. -/
theorem ridx_eq (r : Fin 32768) (n k : Fin 1024) : ridx_main_v32 (ix2 r n) k = ix2 n k :=
  funext fun a => Fin.ext (by match a with | ⟨0, _⟩ => rfl | ⟨1, _⟩ => rfl)

/-- The bias is read at the result's column. -/
theorem bidx_eq (r : Fin 32768) (n : Fin 1024) : idx_main_v33 (idx_main_v34 (ix2 r n)) = ix1 n :=
  funext fun a => Fin.ext (by match a with | ⟨0, _⟩ => rfl)

/-- The layer at given scales, read at row `r` and column `n`. -/
theorem gemm_ix2 (sx sw : EReal) (x : SX.Idx → EReal) (w : SW.Idx → EReal) (bias : Fin 1024 → EReal)
    (r : Fin 32768) (n : Fin 1024) :
    gemm sx sw x w bias (ix2 r n) = (∑ k : Fin 1024, qdq sx (x (ix2 r k)) * qdq sw (w (ix2 n k))) + bias n := rfl

/-! ### The result -/

/-- The reference's result is the layer: at row `r`, column `n`, the contraction over `k` of the dequantized activation
    `x[r,k]` with the dequantized weight `w[n,k]`, plus the bias at `n`. -/
theorem result_eq (x : FVec Ideal S32768x1024 .f32) (w : FVec Ideal S1024x1024 .f32) (b : FVec Ideal S1024 .f32) :
    Cert.ReferenceIdeal.Read.val_main_v35 (F := Ideal) x w b = Cert.QuantGemm.layer x w b := by
  funext i
  obtain ⟨r, n, rfl⟩ : ∃ (r : Fin 32768) (n : Fin 1024), i = ix2 r n := ⟨i 0, i 1, eq_ix2 i⟩
  rw [val_main_v35_apply, val_main_v32_apply, val_main_v34_apply, val_main_v33_apply, bidx_eq]
  unfold layer
  rw [gemm_ix2]
  refine congrArg₂ (· + ·) (Finset.sum_congr rfl fun k _ => ?_) rfl
  rw [deq_x, deq_w, lidx_eq, ridx_eq]

end Cert.ReferenceIdeal.RefValue

end
-- ==== Proof.lean ====
/-
  A "fake-quantized" linear layer: a Pallas kernel against its jnp reference, equal over the extended reals.

  Both programs take activations `x` (32768 × 1024), weights `w` (1024 × 1024) and a bias (1024). For each of `x` and `w`
  they take the largest absolute value `a`, the scale `s = clamp(448 / (2a + ε), ε, 10¹²)`, and replace every entry `v` by
  `round₈(clamp(v·s, ±448)) / s` (`round₈`: to the nearest eighth, ties to even); the result is the product of the two
  replaced arrays contracted over their second axes, plus the bias along the columns (Proof/Spec.lean: `layer`).

  The kernel does it in three launches: two running-maximum reductions over row blocks (the accumulator reset to `0` at
  the first block — harmless, an absolute value is never negative), host arithmetic for the two scales, then one fused
  quantize-and-multiply launch over blocks of 512 rows whose bf16 casts are the identity at the ideal values. The
  reference takes each maximum in one host reduction from `-∞` and multiplies whole arrays. No law used needs finiteness
  (maxima commute and associate; the two contractions are the same finite sum), so the precondition is never opened.

  frame_Kernel, frame_KernelIdeal: the generated frame certificates. frame_ReferenceIdeal: the reference's generated
  run with the result dropped. preserves: the idealization rewrote nothing. algebraic: the kernel's run ends at `layer`
  of the launched arrays (Proof/Result.lean), the reference's at its composed term, which is `layer` too
  (Proof/RefLayer.lean), of arguments that agree.
-/
import proofs.«145302_j49031346651645_1_alg».proof.Defs
import proofs.«145302_j49031346651645_1_alg».proof.Proof.Gen.Kernel
import proofs.«145302_j49031346651645_1_alg».proof.Proof.Gen.Kernel.Skeleton
import proofs.«145302_j49031346651645_1_alg».proof.Proof.Gen.Kernel.Launch
import proofs.«145302_j49031346651645_1_alg».proof.Proof.Gen.Kernel.Points
import proofs.«145302_j49031346651645_1_alg».proof.Proof.Gen.Kernel.Frame
import proofs.«145302_j49031346651645_1_alg».proof.Proof.Gen.KernelIdeal
import proofs.«145302_j49031346651645_1_alg».proof.Proof.Gen.KernelIdeal.Skeleton
import proofs.«145302_j49031346651645_1_alg».proof.Proof.Gen.KernelIdeal.Launch
import proofs.«145302_j49031346651645_1_alg».proof.Proof.Gen.KernelIdeal.Points
import proofs.«145302_j49031346651645_1_alg».proof.Proof.Gen.KernelIdeal.Frame
import proofs.«145302_j49031346651645_1_alg».proof.Proof.Gen.ReferenceIdeal
import proofs.«145302_j49031346651645_1_alg».proof.Proof.Gen.ReferenceIdeal.Run
import proofs.«145302_j49031346651645_1_alg».proof.Proof.Gen.ReferenceIdeal.Read
import proofs.«145302_j49031346651645_1_alg».proof.Proof.Gen.Pre_finite_inputs
import proofs.«145302_j49031346651645_1_alg».proof.Proof.Spec
import proofs.«145302_j49031346651645_1_alg».proof.Proof.Result
import proofs.«145302_j49031346651645_1_alg».proof.Proof.RefLayer
import Idealize.ShloMosaic.Adequacy
import Idealize.ShloMosaic.Init

noncomputable section

namespace Cert.Proof

open Idealize.ShloMosaic Idealize.SL.Sem

/-- The printed kernel runs and leaves its arguments unchanged: the generated frame certificate. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its generated run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values both programs end at `layer` of their arguments, and the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
